-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S20000x1 : Shape := ⟨2, ![20000, 1]⟩
abbrev S640000x1 : Shape := ⟨2, ![640000, 1]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S20000x1 : S_.BroadcastsInDim S20000x1 (![] : Fin 0 → Fin S20000x1.rank)
  reducesTo_S20000x1_S_d0_1 : S20000x1.ReducesTo [0, 1] S_
  bcast_S_S640000x1 : S_.BroadcastsInDim S640000x1 (![] : Fin 0 → Fin S640000x1.rank)
  reducesTo_S640000x1_S_d0_1 : S640000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg4 : IVec S640000 32) (main_arg9 : FVec F S128 .f32) (main_arg10 : FVec F S1x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_c_16 : IVec S_ 32 := constantI S_ 32 4294947296#32
  let main_v44 : IVec S640000 32 := broadcastInDim S640000 ![] bcast_S_S640000 main_c_16
  let main_v45 : IVec S640000 1 := cmpi .sge main_arg4 main_v44
  let main_c_17 : IVec S_ 32 := constantI S_ 32 20000#32
  let main_v46 : IVec S640000 32 := broadcastInDim S640000 ![] bcast_S_S640000 main_c_17
  let main_v47 : IVec S640000 1 := cmpi .slt main_arg4 main_v46
  let main_v48 : IVec S640000 1 := andi main_v45 main_v47
  let main_c_18 : IVec S_ 1 := constantI S_ 1 1#1
  let main_v49 : IVec S_ 1 := (fun x v => Host.reduce IntOp.andi x v reducesTo_S640000_S_d0 h_S_) main_v48 main_c_18
  let main_v50 : IVec S_ 1 := andi main_v43 main_v49
  main_v50

def fn_part1 {F : FTy → Type} [FloatOps F] (main_arg4 : IVec S640000 32) (main_arg6 : FVec F S128x128 .f32) (main_arg7 : FVec F S128 .f32) (main_arg8 : FVec F S128x128 .f32) (main_arg9 : FVec F S128 .f32) (main_arg10 : FVec F S1x128 .f32) (main_v13 : IVec S_ 1) (main_v16 : IVec S640000x1 1) : IVec S_ 1 :=
  let main_c_5 : IVec S_ 1 := constantI S_ 1 1#1
  let main_v17 : IVec S_ 1 := (fun x v => Host.reduce IntOp.andi x v reducesTo_S640000x1_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg9 main_arg10 main_v33

def fn {F : FTy → Type} [FloatOps F] (main_arg0 : FVec F S20000x128 .f32) (main_arg1 : FVec F S640000x128 .f32) (main_arg2 : FVec F S20000x1 .f32) (main_arg3 : FVec F S640000x1 .f32) (main_arg4 : IVec S640000 32) (main_arg5 : IVec S640000 32) (main_arg6 : FVec F S128x128 .f32) (main_arg7 : FVec F S128 .f32) (main_arg8 : FVec F S128x128 .f32) (main_arg9 : FVec F S128 .f32) (main_arg10 : FVec F S1x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S20000x1 .f32 := Host.absf main_arg2
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S640000x1 .f32 := Host.absf main_arg3
  let main_cst_4 : FVec F S_ .f32 := constant S_ .f32 0x7F800000#32
  let main_v15 : FVec F S640000x1 .f32 := broadcastInDim S640000x1 ![] bcast_S_S640000x1 main_cst_4
  let main_v16 : IVec S640000x1 1 := cmpf .olt main_v14 main_v15
  fn_part1 (F := F) main_arg4 main_arg6 main_arg7 main_arg8 main_arg9 main_arg10 main_v13 main_v16
-- ==== Kernel.lean ====
abbrev S20000x128 : Shape := ⟨2, ![20000, 128]⟩
abbrev S640000x128 : Shape := ⟨2, ![640000, 128]⟩
abbrev S20000x1 : Shape := ⟨2, ![20000, 1]⟩
abbrev S640000x1 : Shape := ⟨2, ![640000, 1]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S2000x1 : Shape := ⟨2, ![2000, 1]⟩
abbrev S_ : Shape := ⟨0, ![]⟩
abbrev S1 : Shape := ⟨1, ![1]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 46
  | .vmem => 21
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S20000x1, .f32⟩
  | .hbm, ⟨3, _⟩ => ⟨S640000x1, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S1x128, .f32⟩
  | .hbm, ⟨15, _⟩ => ⟨S20000x128, .f32⟩
  | .hbm, ⟨16, _⟩ => ⟨S20000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S1, .i32⟩
  | .hbm, ⟨26, _⟩ => ⟨S_, .i32⟩
  | .hbm, ⟨27, _⟩ => ⟨S640000x1, .i32⟩
  | .hbm, ⟨28, _⟩ => ⟨S640000x1, .i1⟩
  | .hbm, ⟨29, _⟩ => ⟨S1x1, .i32⟩
  | .hbm, ⟨30, _⟩ => ⟨S640000x1, .i32⟩
  | .hbm, ⟨31, _⟩ => ⟨S640000x1, .i1⟩
  | .hbm, ⟨32, _⟩ => ⟨S640000x1, .i1⟩
  | .hbm, ⟨33, _⟩ => ⟨S_, .i1⟩
  | .hbm, ⟨34, _⟩ => ⟨S640000, .i1⟩
  | .hbm, ⟨35, _⟩ => ⟨S640000x128, .f32⟩
  | .hbm, ⟨36, _⟩ => ⟨S640000x128, .i1⟩
  | .hbm, ⟨37, _⟩ => ⟨S_, .f32⟩
  | .hbm, ⟨38, _⟩ => ⟨S640000x128, .f32⟩
  | .hbm, ⟨39, _⟩ => ⟨S640000x128, .f32⟩
  | .hbm, ⟨40, _⟩ => ⟨S640000x128, .f32⟩
  | .hbm, ⟨41, _⟩ => ⟨S_, .f32⟩
  | .hbm, ⟨42, _⟩ => ⟨S20000x128, .f32⟩
  | .hbm, ⟨43, _⟩ => ⟨S640000x1, .i32⟩
  | .hbm, ⟨44, _⟩ => ⟨S20000x128, .f32⟩
  | .hbm, ⟨45, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S2000x1, .f32⟩
  | .local _ .vmem, ⟨6, _⟩ => ⟨S2000x1, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S20000x128 : S_.BroadcastsInDim S20000x128 (![] : Fin 0 → Fin S20000x128.rank)
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  dot_S5000x128_S128x128_S5000x128_1_0_0_1_n_n_wf : DotDims.WF S5000x128 S128x128 S5000x128 [1] [0] [0] [1] [] []
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S20000x1.size a
  hwx0_4 : ∀ i : grid0.Coords, EltTy.bits .f32 = 32 ∨ (Rect.block (s := S20000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S20000x128.size a
  hwx0_6 : ∀ i : grid0.Coords, EltTy.bits .f32 = 32 ∨ (Rect.block (s := S20000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S640000x1.size a
  hwx1_2 : ∀ i : grid1.Coords, EltTy.bits .f32 = 32 ∨ (Rect.block (s := S640000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S640000x128.size a
  hwx1_5 : ∀ i : grid1.Coords, EltTy.bits .f32 = 32 ∨ (Rect.block (s := S640000x128) S5000x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S20000x1 : Shape := ⟨2, ![20000, 1]⟩
abbrev S640000x1 : Shape := ⟨2, ![640000, 1]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S20000x1, .f32⟩
  | .hbm, ⟨3, _⟩ => ⟨S640000x1, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128x128, .f32⟩
  | .hbm, ⟨12, _⟩ => ⟨S20000x128, .f32⟩
  | .hbm, ⟨13, _⟩ => ⟨S1x128, .f32⟩
  | .hbm, ⟨14, _⟩ => ⟨S20000x128, .f32⟩
  | .hbm, ⟨15, _⟩ => ⟨S20000x128, .f32⟩
  | .hbm, ⟨16, _⟩ => ⟨S128x128, .f32⟩
  | .hbm, ⟨17, _⟩ => ⟨S640000x128, .f32⟩
  | .hbm, ⟨18, _⟩ => ⟨S1x128, .f32⟩
  | .hbm, ⟨19, _⟩ => ⟨S640000x128, .f32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S20000x128, .f32⟩
  | .hbm, ⟨38, _⟩ => ⟨S640000x1, .i32⟩
  | .hbm, ⟨39, _⟩ => ⟨S20000x128, .f32⟩
  | .hbm, ⟨40, _⟩ => ⟨S20000x128, .f32⟩
  | .hbm, ⟨41, _⟩ => ⟨S20000x128, .f32⟩
  | .hbm, ⟨42, _⟩ => ⟨S_, .f32⟩
  | .hbm, ⟨43, _⟩ => ⟨S20000x128, .f32⟩
  | .hbm, ⟨44, _⟩ => ⟨S20000x128, .f32⟩
  | .hbm, ⟨45, _⟩ => ⟨S20000x128, .f32⟩
  | .hbm, ⟨46, _⟩ => ⟨S20000x128, .f32⟩
  | .hbm, ⟨47, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  dot_S20000x128_S128x128_S20000x128_1_0_0_1_n_n_wf : DotDims.WF S20000x128 S128x128 S20000x128 [1] [0] [0] [1] [] []
  dot_S640000x128_S128x128_S640000x128_1_0_0_1_n_n_wf : DotDims.WF S640000x128 S128x128 S640000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.TakeGather.lean ====
/-
  `jnp.take` in its fill mode against plain indexing. Both programs wrap a negative index by the table's length
  (`i < 0 ↦ i + 20000`) and gather rows at the wrapped indices; the kernel's `take` then replaces a row whose wrapped
  index is outside `0 … 19999` by the fill value. For `-20000 ≤ i < 20000` the wrapped index is inside, so nothing is
  replaced and the two gathers are one. The range is what the precondition's last conjunct says of every entry.
-/
import proofs.«426488_j79276506349851_1_alg».proof.Proof.Gen.KernelIdeal
import proofs.«426488_j79276506349851_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Take

open Cert.KernelIdeal Cert.KernelIdeal.Gen Idealize.ShloMosaic Idealize.ShloMosaic.TcCoe Idealize.ShloMosaic.ValueIdx

/-- The start indices both programs gather at: a negative index wrapped by the table's 20000 rows, as a column. -/
def wrapIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 20000#32))) src)

/-- `jnp.take(h, src, axis=0)` as the kernel's @main spells it: the gathered rows where the wrapped index is within
    `0 … 19999`, the fill word elsewhere. -/
def takeFill (h : FVec Ideal S20000x128 .f32) (src : IVec S640000 32) : FVec Ideal S640000x128 .f32 :=
  select
    (broadcastInDim S640000x128 ![0] bcast_S640000_S640000x128_0
      (Host.reduce IntOp.andi
        (andi (cmpi .sge (wrapIdx src) (broadcastInDim S640000x1 ![] bcast_S_S640000x1 (constantI S_ 32 0#32)))
          (cmpi .sle (wrapIdx src) (broadcastInDim S640000x1 ![0, 1] bcast_S1x1_S640000x1_0_1
            (broadcastInDim S1x1 ![1] bcast_S1_S1x1_1 (constantI S1 32 19999#32)))))
        (constantI S_ 1 1#1) reducesTo_S640000x1_S640000_d1 h_S_))
    (Host.gather gather_S20000x128_S640000x1_S640000x128_1_0_n_n_0_1_1128 h (wrapIdx src))
    (broadcastInDim S640000x128 ![] bcast_S_S640000x128 (constant S_ .f32 0x7FC00000#32))

/-- The rank-0 shape has one index. -/
instance : Subsingleton (⟨0, ![]⟩ : Shape).Idx := ⟨fun a b => funext fun d => d.elim0⟩

/-- The word fact. For a signed 32-bit word `x` with `-20000 ≤ x < 20000`, the wrapped word (`x + 20000` when `x < 0`,
    else `x`) lies in `0 … 19999`: a negative `x` is at least `-20000`, so `x + 20000` is in `0 … 19999` and the sum does
    not leave the signed range; a nonnegative `x` is below `20000` already. -/
theorem wrap_in_range (x : BitVec 32) (h1 : IntOp.cmpi .sge x 4294947296#32 = 1#1) (h2 : IntOp.cmpi .slt x 20000#32 = 1#1) :
    IntOp.cmpi .sge (Scalar.select (IntOp.cmpi .slt x 0#32) (IntOp.addi x 20000#32) x) 0#32 = 1#1 ∧
      IntOp.cmpi .sle (Scalar.select (IntOp.cmpi .slt x 0#32) (IntOp.addi x 20000#32) x) 19999#32 = 1#1 := by
  have e1 : (4294947296#32 : BitVec 32).toInt = -20000 := by decide
  have e2 : (20000#32 : BitVec 32).toInt = 20000 := by decide
  have e3 : (0#32 : BitVec 32).toInt = 0 := by decide
  have e4 : (19999#32 : BitVec 32).toInt = 19999 := by decide
  rw [IntOp.cmpi_sge, e1] at h1
  rw [IntOp.cmpi_slt, e2] at h2
  by_cases hc : IntOp.cmpi .slt x 0#32 = 1#1
  · have hs : Scalar.select (IntOp.cmpi .slt x 0#32) (IntOp.addi x 20000#32) x = x + 20000#32 := if_pos hc
    rw [IntOp.cmpi_slt, e3] at hc
    have hm : (x.toInt + 20000).bmod (2 ^ 32) = x.toInt + 20000 := by
      apply Int.bmod_eq_of_le <;> omega
    rw [hs, IntOp.cmpi_sge, IntOp.cmpi_sle, BitVec.toInt_add, e2, e3, e4, hm]
    omega
  · have hs : Scalar.select (IntOp.cmpi .slt x 0#32) (IntOp.addi x 20000#32) x = x := if_neg hc
    rw [IntOp.cmpi_slt, e3] at hc
    rw [hs, IntOp.cmpi_sge, IntOp.cmpi_sle, e3, e4]
    omega

/-- A left fold by `and` from 1 over words that are all 1 stays 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduce by `and` from 1 of an array of 1s is 1 at every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_all_one x hx _

/-- The wrapped column at an index is the wrapped word of one source entry (the entry of that row). -/
theorem wrapIdx_apply (src : IVec S640000 32) (i : S640000x1.Idx) :
    ∃ e : S640000.Idx, wrapIdx src i = Scalar.select (IntOp.cmpi .slt (src e) 0#32) (IntOp.addi (src e) 20000#32) (src e) :=
  ⟨_, rfl⟩

/-- What the precondition says of the source indices: each lies in `-20000 … 19999` (as signed 32-bit words). -/
theorem src_range_of_pre (a0 : FVec Ideal S20000x128 .f32) (a1 : FVec Ideal S640000x128 .f32) (a2 : FVec Ideal S20000x1 .f32)
    (a3 : FVec Ideal S640000x1 .f32) (a4 a5 : IVec S640000 32) (a6 : FVec Ideal S128x128 .f32) (a7 : FVec Ideal S128 .f32)
    (a8 : FVec Ideal S128x128 .f32) (a9 : FVec Ideal S128 .f32) (a10 : FVec Ideal S1x128 .f32)
    (hpre : Cert.Pre_finite_inputs.fn (F := Ideal) a0 a1 a2 a3 a4 a5 a6 a7 a8 a9 a10 = fun _ => 1#1) (e : S640000.Idx) :
    IntOp.cmpi .sge (a4 e) 4294947296#32 = 1#1 ∧ IntOp.cmpi .slt (a4 e) 20000#32 = 1#1 := by
  have h0 := congrFun hpre ValueIdx.ix0
  dsimp only [Cert.Pre_finite_inputs.fn, Cert.Pre_finite_inputs.fn_part1, Cert.Pre_finite_inputs.fn_part2] at h0
  -- the whole predicate is a conjunction whose last conjunct is the `all` over the index range test
  obtain ⟨-, h49⟩ := IntOp.andi_eq_one.1 h0
  -- an `all` that is 1 had a 1 at every entry; the entry at `e` is the conjunction of the two comparisons,
  -- each against a broadcast scalar constant, which reads the constant at every index
  have he := Host.reduce_andi_all _ _ _ _ _ h49 e
  exact IntOp.andi_eq_one.1 he

/-- On indices in `-20000 … 19999` the fill never applies: `take` is the gather at the wrapped indices. -/
theorem takeFill_eq_gather (h : FVec Ideal S20000x128 .f32) (src : IVec S640000 32)
    (hsrc : ∀ e : S640000.Idx, IntOp.cmpi .sge (src e) 4294947296#32 = 1#1 ∧ IntOp.cmpi .slt (src e) 20000#32 = 1#1) :
    takeFill h src = Host.gather gather_S20000x128_S640000x1_S640000x128_1_0_n_n_0_1_1128 h (wrapIdx src) := by
  funext j
  -- the select's condition at `j` is the row's `all` (over its one column) of the range test on the wrapped index
  have hc : (broadcastInDim S640000x128 ![0] bcast_S640000_S640000x128_0
      (Host.reduce IntOp.andi
        (andi (cmpi .sge (wrapIdx src) (broadcastInDim S640000x1 ![] bcast_S_S640000x1 (constantI S_ 32 0#32)))
          (cmpi .sle (wrapIdx src) (broadcastInDim S640000x1 ![0, 1] bcast_S1x1_S640000x1_0_1
            (broadcastInDim S1x1 ![1] bcast_S1_S1x1_1 (constantI S1 32 19999#32)))))
        (constantI S_ 1 1#1) reducesTo_S640000x1_S640000_d1 h_S_)) j = 1#1 := by
    refine reduce_andi_of_all_one _ _ _ _ rfl (fun i => ?_) _
    obtain ⟨e, he⟩ := wrapIdx_apply src i
    show IntOp.andi (IntOp.cmpi .sge (wrapIdx src i) 0#32) (IntOp.cmpi .sle (wrapIdx src i) 19999#32) = 1#1
    rw [he]
    exact IntOp.andi_eq_one.2 (wrap_in_range (src e) (hsrc e).1 (hsrc e).2)
  rw [takeFill, ValueIdx.select_apply, hc, ValueIdx.select_one]

end Cert.KernelIdeal.Take

end
-- ==== Proof.HostReads.lean ====
/-
  What each region and each later host stretch FINDS in the buffers it reads, in terms of the launch memory: an
  argument array is never written, so it is found as launched; the two weights are found transposed and the two
  biases as one-row matrices whose entry `(0, q)` is the bias entry `q`; the gathered rows are `take` of region 0's
  first output at the source indices; and the result is the scatter-add of region 1's output into zeros, at the
  destination indices, plus region 0's second output.
-/
import proofs.«426488_j79276506349851_1_alg».proof.Proof.Gen.KernelIdeal.Frame
import proofs.«426488_j79276506349851_1_alg».proof.Proof.TakeGather
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.HostReads

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- A stretch of host operations leaves a buffer none of them writes as it found it. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## At region 0's entry -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps hostOps0

/-- The node weight is found transposed. -/
theorem W1_v0 (c : Dev nD) : W1 m ρ c (Proc.devRef .tc main_v0)
    = transpose S128x128 [1, 0] (m ((c : Thread nD τ).loc main_arg6)) transposes_S128x128_S128x128_1_0 := by
  show StableHlo.after hostOps0 (W0 m ρ c) (Proc.devRef .tc main_v0) = _
  after_results
/-- The edge weight is found transposed. -/
theorem W1_v1 (c : Dev nD) : W1 m ρ c (Proc.devRef .tc main_v1)
    = transpose S128x128 [1, 0] (m ((c : Thread nD τ).loc main_arg8)) transposes_S128x128_S128x128_1_0 := by
  show StableHlo.after hostOps0 (W0 m ρ c) (Proc.devRef .tc main_v1) = _
  after_results

/-- A vector of 128 entries reshaped to one row: entry `(0, q)` of the row is entry `q` of the vector. -/
theorem row_of_vec (v : S128.Idx → EReal) (q : Fin 128) :
    shapeCast S1x128 v shapeCasts_S128_S1x128 (ix2 0 q) = v (ix1 q) := by
  refine (shapeCast_addUnit_apply ![128] v shapeCasts_S128_S1x128 (ix2 0 q)).trans ?_
  exact congrArg v (funext fun a => by match a with | ⟨0, _⟩ => rfl)

/-- The node bias is found as a row. -/
theorem W1_v2_apply (c : Dev nD) (q : Fin 128) :
    (W1 m ρ c (Proc.devRef .tc main_v2) : S1x128.Idx → EReal) (ix2 0 q)
      = (m ((c : Thread nD τ).loc main_arg7) : S128.Idx → EReal) (ix1 q) := by
  have e : (W1 m ρ c (Proc.devRef .tc main_v2) : S1x128.Idx → EReal)
      = shapeCast S1x128 (m ((c : Thread nD τ).loc main_arg7) : S128.Idx → EReal) shapeCasts_S128_S1x128 := by
    show StableHlo.after hostOps0 (W0 m ρ c) (Proc.devRef .tc main_v2) = _
    after_results
    rfl
  rw [e]; exact row_of_vec _ q
/-- The edge bias is found as a row. -/
theorem W1_v3_apply (c : Dev nD) (q : Fin 128) :
    (W1 m ρ c (Proc.devRef .tc main_v3) : S1x128.Idx → EReal) (ix2 0 q)
      = (m ((c : Thread nD τ).loc main_arg9) : S128.Idx → EReal) (ix1 q) := by
  have e : (W1 m ρ c (Proc.devRef .tc main_v3) : S1x128.Idx → EReal)
      = shapeCast S1x128 (m ((c : Thread nD τ).loc main_arg9) : S128.Idx → EReal) shapeCasts_S128_S1x128 := by
    show StableHlo.after hostOps0 (W0 m ρ c) (Proc.devRef .tc main_v3) = _
    after_results
    rfl
  rw [e]; exact row_of_vec _ q

/-! ## At region 0's exit (what `take` reads) -/

theorem W2_v4_0 (c : Dev nD) : W2 m ρ c (Proc.devRef .tc main_v4_0) = (dat0 (V1 m ρ) c).arrAt 5 cfg0.N := W2_arr m ρ c 5
theorem W2_v4_1 (c : Dev nD) : W2 m ρ c (Proc.devRef .tc main_v4_1) = (dat0 (V1 m ρ) c).arrAt 6 cfg0.N := W2_arr m ρ c 6
theorem W2_arg1 (c : Dev nD) : W2 m ρ c (Proc.devRef .tc main_arg1) = m ((c : Thread nD τ).loc main_arg1) :=
  (W2_of_ne m ρ c main_arg1 (by decide)).trans (W1_arg1 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_v1 (c : Dev nD) : W2 m ρ c (Proc.devRef .tc main_v1)
    = transpose S128x128 [1, 0] (m ((c : Thread nD τ).loc main_arg8)) transposes_S128x128_S128x128_1_0 :=
  (W2_of_ne m ρ c main_v1 (by decide)).trans (W1_v1 m ρ c)
theorem W2_v3 (c : Dev nD) : W2 m ρ c (Proc.devRef .tc main_v3) = W1 m ρ c (Proc.devRef .tc main_v3) :=
  W2_of_ne m ρ c main_v3 (by decide)

/-! ## At region 1's entry -/

theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = W2 m ρ c (Proc.devRef .tc main_arg1)
  host_keeps hostOps1
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3)
  host_keeps hostOps1
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  host_keeps hostOps1
theorem W3_v1 (c : Dev nD) : W3 m ρ c (Proc.devRef .tc main_v1)
    = transpose S128x128 [1, 0] (m ((c : Thread nD τ).loc main_arg8)) transposes_S128x128_S128x128_1_0 := by
  refine Eq.trans ?_ (W2_v1 m ρ c)
  show StableHlo.after hostOps1 (W2 m ρ c) (Proc.devRef .tc main_v1) = W2 m ρ c (Proc.devRef .tc main_v1)
  host_keeps hostOps1
theorem W3_v3_apply (c : Dev nD) (q : Fin 128) :
    (W3 m ρ c (Proc.devRef .tc main_v3) : S1x128.Idx → EReal) (ix2 0 q)
      = (m ((c : Thread nD τ).loc main_arg9) : S128.Idx → EReal) (ix1 q) := by
  have e : W3 m ρ c (Proc.devRef .tc main_v3) = W1 m ρ c (Proc.devRef .tc main_v3) := by
    refine Eq.trans ?_ (W2_v3 m ρ c)
    show StableHlo.after hostOps1 (W2 m ρ c) (Proc.devRef .tc main_v3) = W2 m ρ c (Proc.devRef .tc main_v3)
    host_keeps hostOps1
  rw [e]; exact W1_v3_apply m ρ c q
theorem W3_v4_1 (c : Dev nD) : W3 m ρ c (Proc.devRef .tc main_v4_1) = (dat0 (V1 m ρ) c).arrAt 6 cfg0.N := by
  refine Eq.trans ?_ (W2_v4_1 m ρ c)
  show StableHlo.after hostOps1 (W2 m ρ c) (Proc.devRef .tc main_v4_1) = W2 m ρ c (Proc.devRef .tc main_v4_1)
  host_keeps hostOps1

set_option maxHeartbeats 2000000 in
/-- The gathered rows are `take` (fill mode) of region 0's first output at the source indices. -/
theorem W3_v5 (c : Dev nD) : W3 m ρ c (Proc.devRef .tc main_v5)
    = Take.takeFill ((dat0 (V1 m ρ) c).arrAt 5 cfg0.N) (m ((c : Thread nD τ).loc main_arg4)) := by
  have e : W3 m ρ c (Proc.devRef .tc main_v5)
      = Take.takeFill (W2 m ρ c (Proc.devRef .tc main_v4_0)) (W2 m ρ c (Proc.devRef .tc main_arg4)) := by
    show StableHlo.after hostOps1 (W2 m ρ c) (Proc.devRef .tc main_v5) = _
    after_results_simp
    simp only [TRef.toBuf, TRef.ofBuf, cast_eq]
    rfl
  rw [e, W2_v4_0, W2_arg4]

/-! ## At region 1's exit, and the result -/

theorem W4_v6 (c : Dev nD) : W4 m ρ c (Proc.devRef .tc main_v6) = (dat1 (V3 m ρ) c).arrAt 5 cfg1.N := W4_arr m ρ c 5
theorem W4_arg5 (c : Dev nD) : W4 m ρ c (Proc.devRef .tc main_arg5) = m ((c : Thread nD τ).loc main_arg5) :=
  (W4_of_ne m ρ c main_arg5 (by decide)).trans (W3_arg5 m ρ c)
theorem W4_v4_1 (c : Dev nD) : W4 m ρ c (Proc.devRef .tc main_v4_1) = (dat0 (V1 m ρ) c).arrAt 6 cfg0.N :=
  (W4_of_ne m ρ c main_v4_1 (by decide)).trans (W3_v4_1 m ρ c)

/-- The result buffer: region 1's output scattered and added into zeros at the destination indices, plus region 0's
    second output. -/
theorem W5_v10 (c : Dev nD) : W5 m ρ c (Proc.devRef .tc main_v10)
    = addf (F := Ideal) (Host.scatterAdd (F := Ideal) scatter_S20000x128_S640000x1_S640000x128_1_0_0_1
          (broadcastInDim S20000x128 ![] bcast_S_S20000x128 (constant (F := Ideal) S_ .f32 0x00000000#32))
          (broadcastInDim S640000x1 ![0] bcast_S640000_S640000x1_0 (m ((c : Thread nD τ).loc main_arg5)))
          ((dat1 (V3 m ρ) c).arrAt 5 cfg1.N))
        ((dat0 (V1 m ρ) c).arrAt 6 cfg0.N) := by
  have e : W5 m ρ c (Proc.devRef .tc main_v10)
      = addf (F := Ideal) (Host.scatterAdd (F := Ideal) scatter_S20000x128_S640000x1_S640000x128_1_0_0_1
          (broadcastInDim S20000x128 ![] bcast_S_S20000x128 (constant (F := Ideal) S_ .f32 0x00000000#32))
          (broadcastInDim S640000x1 ![0] bcast_S640000_S640000x1_0 (W4 m ρ c (Proc.devRef .tc main_arg5)))
          (W4 m ρ c (Proc.devRef .tc main_v6)))
        (W4 m ρ c (Proc.devRef .tc main_v4_1)) := by
    show StableHlo.after hostOps2 (W4 m ρ c) (Proc.devRef .tc main_v10) = _
    after_results
  rw [e, W4_arg5, W4_v6, W4_v4_1]

end Cert.KernelIdeal.HostReads

end
-- ==== Proof.Spec.lean ====
/-
  The layer, as functions of whole arrays over the extended reals.

  A node layer is `h = x · Wᵀ + b`; an edge message is `norm · max(h[src] + e, 0)` with `e` the same kind of
  linear layer of the edge features; the residual is `max(h + r, 0) / deg`. Each is stated here entry by entry over
  opaque operand arrays: `lin` takes the weight ALREADY transposed (`WT k q = W q k`), so neither side's transpose
  is ever read at an index, and `msg` takes the gathered rows as an array of its own, so the gather stays the one host
  operation both programs apply.
-/
import Idealize.ShloMosaic.PureOps.Ideal
import Idealize.ShloMosaic.Lib.ValueIdx

noncomputable section

open scoped BigOperators

namespace Cert.Spec

open Idealize.ShloMosaic Idealize.ShloMosaic.ValueIdx

/-- The zero word of `f32`, as both programs write it; it is the extended real `0` (`Ideal.ofBits_zero_f32`), a fact
    only the matrix product's zero accumulator needs. -/
abbrev zeroW : EReal := Ideal.ofBits .f32 0x00000000#32

/-- Entry `(p, q)` of a linear layer: row `p` of `x` against column `q` of the transposed weight, plus bias entry `q`. -/
def linAt {n : Nat} (x : (⟨2, ![n, 128]⟩ : Shape).Idx → EReal) (WT : (⟨2, ![128, 128]⟩ : Shape).Idx → EReal)
    (b : (⟨1, ![128]⟩ : Shape).Idx → EReal) (p : Fin n) (q : Fin 128) : EReal :=
  (∑ k : Fin 128, x (ix2 p k) * WT (ix2 k q)) + b (ix1 q)

/-- The linear layer `x · WT + b` as a whole array. -/
def lin {n : Nat} (x : (⟨2, ![n, 128]⟩ : Shape).Idx → EReal) (WT : (⟨2, ![128, 128]⟩ : Shape).Idx → EReal)
    (b : (⟨1, ![128]⟩ : Shape).Idx → EReal) : (⟨2, ![n, 128]⟩ : Shape).Idx → EReal :=
  fun i => linAt x WT b (i 0) (i 1)

theorem lin_apply {n : Nat} (x : (⟨2, ![n, 128]⟩ : Shape).Idx → EReal) (WT : (⟨2, ![128, 128]⟩ : Shape).Idx → EReal)
    (b : (⟨1, ![128]⟩ : Shape).Idx → EReal) (p : Fin n) (q : Fin 128) :
    lin x WT b (ix2 p q) = (∑ k : Fin 128, x (ix2 p k) * WT (ix2 k q)) + b (ix1 q) := rfl

/-- Entry `(p, q)` of the residual: `max(h + r, 0) / deg`, the residual weight one row, the degree one column. -/
def resAt {n : Nat} (h : (⟨2, ![n, 128]⟩ : Shape).Idx → EReal) (r : (⟨2, ![1, 128]⟩ : Shape).Idx → EReal)
    (deg : (⟨2, ![n, 1]⟩ : Shape).Idx → EReal) (p : Fin n) (q : Fin 128) : EReal :=
  Ideal.div (max (h (ix2 p q) + r (ix2 0 q)) zeroW) (deg (ix2 p 0))

/-- The residual path as a whole array. -/
def res {n : Nat} (h : (⟨2, ![n, 128]⟩ : Shape).Idx → EReal) (r : (⟨2, ![1, 128]⟩ : Shape).Idx → EReal)
    (deg : (⟨2, ![n, 1]⟩ : Shape).Idx → EReal) : (⟨2, ![n, 128]⟩ : Shape).Idx → EReal :=
  fun i => resAt h r deg (i 0) (i 1)

theorem res_apply {n : Nat} (h : (⟨2, ![n, 128]⟩ : Shape).Idx → EReal) (r : (⟨2, ![1, 128]⟩ : Shape).Idx → EReal)
    (deg : (⟨2, ![n, 1]⟩ : Shape).Idx → EReal) (p : Fin n) (q : Fin 128) :
    res h r deg (ix2 p q) = Ideal.div (max (h (ix2 p q) + r (ix2 0 q)) zeroW) (deg (ix2 p 0)) := rfl

/-- Entry `(p, q)` of the edge message: `norm · max(g + e, 0)`, `g` the gathered source rows, `norm` one column. -/
def msgAt {n : Nat} (nrm : (⟨2, ![n, 1]⟩ : Shape).Idx → EReal) (g e : (⟨2, ![n, 128]⟩ : Shape).Idx → EReal)
    (p : Fin n) (q : Fin 128) : EReal :=
  nrm (ix2 p 0) * max (g (ix2 p q) + e (ix2 p q)) zeroW

/-- The edge messages as a whole array. -/
def msg {n : Nat} (nrm : (⟨2, ![n, 1]⟩ : Shape).Idx → EReal) (g e : (⟨2, ![n, 128]⟩ : Shape).Idx → EReal) :
    (⟨2, ![n, 128]⟩ : Shape).Idx → EReal :=
  fun i => msgAt nrm g e (i 0) (i 1)

theorem msg_apply {n : Nat} (nrm : (⟨2, ![n, 1]⟩ : Shape).Idx → EReal) (g e : (⟨2, ![n, 128]⟩ : Shape).Idx → EReal)
    (p : Fin n) (q : Fin 128) :
    msg nrm g e (ix2 p q) = nrm (ix2 p 0) * max (g (ix2 p q) + e (ix2 p q)) zeroW := rfl

end Cert.Spec

end
-- ==== Proof.Region0Value.lean ====
/-
  Region 0 (the node projection), read as values at the extended reals: whatever the region finds in its arrays, it
  leaves `h = x · WT + b` in its first output array and `max(h + r, 0) / deg` in its second, entry by entry
  (`Spec.lin`, `Spec.res`). Block `t` of the grid holds rows `2000 t … 2000 t + 1999`; the ten blocks tile the 20000 rows.
-/
import proofs.«426488_j79276506349851_1_alg».proof.Proof.Gen.KernelIdeal.Frame
import proofs.«426488_j79276506349851_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block product at an entry

The body multiplies a block of 2000 rows by the whole 128 × 128 transposed weight, contracting the block's axis 1 with the
weight's axis 0. The four facts below read the two operand indices of that contraction, axis by axis. -/

theorem lhs_blockdot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blockdot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blockdot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blockdot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the block product into a zero accumulator: row `p` of the block against column `q` of the weight. -/
theorem blockdot_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]

/-- A `[2000, 1]` column broadcast to `[2000, 128]` reads, at `(p, q)`, the column's entry `p`. -/
theorem column_broadcast_apply (v : S2000x1.Idx → EReal) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ =>
    show p.val = if (2000 : Nat) = 1 then 0 else p.val
    rw [if_neg (by decide)]
  | ⟨1, _⟩ => rfl

/-- Entry `(p, q)` of the body's first payload: the block's row `p` against the weight's column `q`, plus the bias row's entry `q`. -/
theorem linear_payload_apply (x0 : Vec Ideal S2000x128 .f32) (x1 : Vec Ideal S128x128 .f32) (x2 : Vec Ideal S1x128 .f32)
    (p : Fin 2000) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ (ix2 p q)).trans ?_
  refine congrArg₂ (· + ·) ?_ ?_
  · refine (blockdot_apply _ _ p q).trans ?_
    simp only [shapeCast_self]
    rfl
  · refine (broadcastTo_1b_ab_apply _ broadcasts_S1x128_S2000x128 p q).trans ?_
    rw [shapeCast_self]

/-- Entry `(p, q)` of the body's second payload: the first payload plus the residual row's entry `q`, clamped below at zero,
    over the degree column's entry `p`. -/
theorem residual_payload_apply (x0 : Vec Ideal S2000x128 .f32) (x1 : Vec Ideal S128x128 .f32) (x2 : Vec Ideal S1x128 .f32)
    (x3 : Vec Ideal S1x128 .f32) (x4 : Vec Ideal S2000x1 .f32) (p : Fin 2000) (q : Fin 128) :
    k0_pay2 (F := Ideal) x0 x1 x2 x3 x4 (ix2 p q)
      = Ideal.div (max (k0_pay1 (F := Ideal) x0 x1 x2 (ix2 p q) + x3 (ix2 (0 : Fin 1) q)) Spec.zeroW) (x4 (ix2 p (0 : Fin 1))) := by
  unfold k0_pay2
  refine (divf_apply _ _ (ix2 p q)).trans ?_
  refine congrArg₂ Ideal.div ?_ (column_broadcast_apply _ p q)
  refine (maximumf_apply _ _ (ix2 p q)).trans ?_
  refine congrArg₂ max ?_ rfl
  refine (addf_apply _ _ (ix2 p q)).trans ?_
  exact congrArg₂ (· + ·) rfl (broadcastTo_1b_ab_apply _ broadcasts_S1x128_S2000x128 p q)

/-! ## The blocks

At grid point `t` the row-blocked windows (the input rows, the degree column, the two outputs) sit at block `t` of their first
axis; the weight, the bias row and the residual row are whole at every point. -/

theorem zero_offsets : (![0, 0] : Fin 2 → Nat) = fun _ => 0 := funext fun a => by fin_cases a <;> rfl

/-- The printed index maps, decided over the ten points. -/
theorem block_indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row `p` of the input block at point `t` is row `2000 t + p` of the input array. -/
theorem rows_block_apply (c : Dev nD) (t : Fin cfg0.N) (p : Fin 2000) (k : Fin 128) (r : Fin 20000)
    (hr : r.val = t.val * 2000 + p.val) :
    (iblk0 V c 0 t : Vec Ideal S2000x128 .f32) (ix2 p k) = (V c main_arg0 : S20000x128.Idx → EReal) (ix2 r k) := by
  obtain ⟨⟨e0, e1⟩, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight's block at every point is the whole weight. -/
theorem weight_block_apply (c : Dev nD) (t : Fin cfg0.N) (k : Fin 128) (q : Fin 128) :
    (iblk0 V c 1 t : Vec Ideal S128x128 .f32) (ix2 k q) = (V c main_v0 : S128x128.Idx → EReal) (ix2 k q) := by
  obtain ⟨-, ⟨e0, e1⟩, -⟩ := block_indices t
  unfold iblk0
  rw [View.read_apply]
  show V c main_v0 _ = V c main_v0 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias row's block at every point is the whole row. -/
theorem bias_block_apply (c : Dev nD) (t : Fin cfg0.N) (q : Fin 128) :
    (iblk0 V c 2 t : Vec Ideal S1x128 .f32) (ix2 (0 : Fin 1) q) = (V c main_v2 : S1x128.Idx → EReal) (ix2 (0 : Fin 1) q) := by
  obtain ⟨-, -, ⟨e0, e1⟩, -⟩ := block_indices t
  unfold iblk0
  rw [View.read_apply]
  show V c main_v2 _ = V c main_v2 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- The residual row's block at every point is the whole row. -/
theorem residual_block_apply (c : Dev nD) (t : Fin cfg0.N) (q : Fin 128) :
    (iblk0 V c 3 t : Vec Ideal S1x128 .f32) (ix2 (0 : Fin 1) q) = (V c main_arg10 : S1x128.Idx → EReal) (ix2 (0 : Fin 1) q) := by
  obtain ⟨-, -, -, ⟨e0, e1⟩, -⟩ := block_indices t
  unfold iblk0
  rw [View.read_apply]
  show V c main_arg10 _ = V c main_arg10 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-- Entry `p` of the degree block at point `t` is entry `2000 t + p` of the degree column. -/
theorem degree_block_apply (c : Dev nD) (t : Fin cfg0.N) (p : Fin 2000) (r : Fin 20000)
    (hr : r.val = t.val * 2000 + p.val) :
    (iblk0 V c 4 t : Vec Ideal S2000x1 .f32) (ix2 p (0 : Fin 1)) = (V c main_arg2 : S20000x1.Idx → EReal) (ix2 r (0 : Fin 1)) := by
  obtain ⟨-, -, -, -, ⟨e0, e1⟩, -⟩ := block_indices t
  unfold iblk0
  rw [View.read_apply]
  show V c main_arg2 _ = V c main_arg2 _
  congr 1
  funext a
  apply Fin.ext
  match a with
  | ⟨0, _⟩ => show win0_4.index t (0 : Fin 2) * 2000 + 1 * p.val = r.val; rw [e0, hr]; omega
  | ⟨1, _⟩ => show win0_4.index t (1 : Fin 2) * 1 + 1 * 0 = 0; rw [e1]

/-! ## What a point writes back -/

/-- Entry `(p, q)` of the first payload at point `t`'s blocks is entry `(2000 t + p, q)` of the linear layer of the arrays. -/
theorem linear_block_entry (c : Dev nD) (b : (⟨1, ![128]⟩ : Shape).Idx → EReal)
    (hb : ∀ q : Fin 128, (V c main_v2 : S1x128.Idx → EReal) (ix2 0 q) = b (ix1 q))
    (t : Fin cfg0.N) (p : Fin 2000) (q : Fin 128) (r : Fin 20000) (hr : r.val = t.val * 2000 + p.val) :
    k0_pay1 (F := Ideal) (iblk0 V c 0 t) (iblk0 V c 1 t) (iblk0 V c 2 t) (ix2 p q)
      = Spec.lin (V c main_arg0 : S20000x128.Idx → EReal) (V c main_v0 : S128x128.Idx → EReal) b (ix2 r q) := by
  refine (linear_payload_apply (iblk0 V c 0 t) (iblk0 V c 1 t) (iblk0 V c 2 t) p q).trans ?_
  rw [Spec.lin_apply]
  exact congrArg₂ (· + ·)
    (Finset.sum_congr rfl fun k _ => congrArg₂ (· * ·) (rows_block_apply V c t p k r hr) (weight_block_apply V c t k q))
    ((bias_block_apply V c t q).trans (hb q))

/-- Entry `(p, q)` of the second payload at point `t`'s blocks is entry `(2000 t + p, q)` of the residual of that layer. -/
theorem residual_block_entry (c : Dev nD) (b : (⟨1, ![128]⟩ : Shape).Idx → EReal)
    (hb : ∀ q : Fin 128, (V c main_v2 : S1x128.Idx → EReal) (ix2 0 q) = b (ix1 q))
    (t : Fin cfg0.N) (p : Fin 2000) (q : Fin 128) (r : Fin 20000) (hr : r.val = t.val * 2000 + p.val) :
    k0_pay2 (F := Ideal) (iblk0 V c 0 t) (iblk0 V c 1 t) (iblk0 V c 2 t) (iblk0 V c 3 t) (iblk0 V c 4 t) (ix2 p q)
      = Spec.res (Spec.lin (V c main_arg0 : S20000x128.Idx → EReal) (V c main_v0 : S128x128.Idx → EReal) b)
          (V c main_arg10 : S1x128.Idx → EReal) (V c main_arg2 : S20000x1.Idx → EReal) (ix2 r q) := by
  refine (residual_payload_apply (iblk0 V c 0 t) (iblk0 V c 1 t) (iblk0 V c 2 t) (iblk0 V c 3 t) (iblk0 V c 4 t) p q).trans ?_
  rw [Spec.res_apply]
  exact congrArg₂ Ideal.div
    (congrArg₂ max (congrArg₂ (· + ·) (linear_block_entry V c b hb t p q r hr) (residual_block_apply V c t q)) rfl)
    (degree_block_apply V c t p r hr)

/-- Entry `(p, q)` of the first output's block at point `t` sits at `(2000 t + p, q)` of its array. -/
theorem h_block_emb (t : Fin cfg0.N) (p : Fin 2000) (q : Fin 128) (r : Fin 20000) (hr : r.val = t.val * 2000 + p.val) :
    ((cfg0.win 5).blk t).view.emb (ix2 p q) = (ix2 r q : S20000x128.Idx) := by
  obtain ⟨-, -, -, -, -, ⟨e0, e1⟩, -⟩ := block_indices t
  funext a
  apply Fin.ext
  match a with
  | ⟨0, _⟩ => show win0_5.index t (0 : Fin 2) * 2000 + 1 * p.val = r.val; rw [e0, hr]; omega
  | ⟨1, _⟩ => show win0_5.index t (1 : Fin 2) * 128 + 1 * q.val = q.val; rw [e1]; omega

/-- Entry `(p, q)` of the second output's block at point `t` sits at `(2000 t + p, q)` of its array. -/
theorem res_block_emb (t : Fin cfg0.N) (p : Fin 2000) (q : Fin 128) (r : Fin 20000) (hr : r.val = t.val * 2000 + p.val) :
    ((cfg0.win 6).blk t).view.emb (ix2 p q) = (ix2 r q : S20000x128.Idx) := by
  obtain ⟨-, -, -, -, -, -, ⟨e0, e1⟩⟩ := block_indices t
  funext a
  apply Fin.ext
  match a with
  | ⟨0, _⟩ => show win0_6.index t (0 : Fin 2) * 2000 + 1 * p.val = r.val; rw [e0, hr]; omega
  | ⟨1, _⟩ => show win0_6.index t (1 : Fin 2) * 128 + 1 * q.val = q.val; rw [e1]; omega

/-- Row `2000 t + p` is a row of the array, for `t` one of the ten points and `p` a row of a block. -/
theorem row_lt (t : Fin cfg0.N) (p : Fin 2000) : t.val * 2000 + p.val < 20000 := by
  have ht : t.val < 10 := t.isLt
  have hp : p.val < 2000 := p.isLt
  omega

/-- What point `t` writes back to the first output array is block `t` of the linear layer of the arrays. -/
theorem h_flushed (c : Dev nD) (b : (⟨1, ![128]⟩ : Shape).Idx → EReal)
    (hb : ∀ q : Fin 128, (V c main_v2 : S1x128.Idx → EReal) (ix2 0 q) = b (ix1 q)) (t : Fin cfg0.N) :
    (dat0 (F := Ideal) V c).flushed 5 t
      = ((cfg0.win 5).blk t).view.read (Elt Ideal)
          (Spec.lin (V c main_arg0 : S20000x128.Idx → EReal) (V c main_v0 : S128x128.Idx → EReal) b) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = Spec.lin (V c main_arg0 : S20000x128.Idx → EReal) (V c main_v0 : S128x128.Idx → EReal) b (((cfg0.win 5).blk t).view.emb (ix2 p q))
  rw [h_block_emb t p q ⟨t.val * 2000 + p.val, row_lt t p⟩ rfl]
  exact linear_block_entry V c b hb t p q _ rfl

/-- What point `t` writes back to the second output array is block `t` of the residual of that layer. -/
theorem res_flushed (c : Dev nD) (b : (⟨1, ![128]⟩ : Shape).Idx → EReal)
    (hb : ∀ q : Fin 128, (V c main_v2 : S1x128.Idx → EReal) (ix2 0 q) = b (ix1 q)) (t : Fin cfg0.N) :
    (dat0 (F := Ideal) V c).flushed 6 t
      = ((cfg0.win 6).blk t).view.read (Elt Ideal)
          (Spec.res (Spec.lin (V c main_arg0 : S20000x128.Idx → EReal) (V c main_v0 : S128x128.Idx → EReal) b)
            (V c main_arg10 : S1x128.Idx → EReal) (V c main_arg2 : S20000x1.Idx → EReal)) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S128x128) zero_offsets,
    View.ld_unit_zero (S := S1x128) zero_offsets, View.ld_unit_zero (S := S2000x1) zero_offsets]
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = Spec.res (Spec.lin (V c main_arg0 : S20000x128.Idx → EReal) (V c main_v0 : S128x128.Idx → EReal) b)
        (V c main_arg10 : S1x128.Idx → EReal) (V c main_arg2 : S20000x1.Idx → EReal) (((cfg0.win 6).blk t).view.emb (ix2 p q))
  rw [res_block_emb t p q ⟨t.val * 2000 + p.val, row_lt t p⟩ rfl]
  exact residual_block_entry V c b hb t p q _ rfl

/-! ## The ten blocks tile the rows -/

/-- An index of the first output array is in point `t`'s block iff each coordinate is in the block's range on its axis. -/
theorem mem_h_block (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v4_0).slice (win0_5.rect t)).set ↔ _
  rw [View.set_slice_whole, Rect.mem_set_unit]
  exact Iff.rfl

/-- An index of the second output array is in point `t`'s block iff each coordinate is in the block's range on its axis. -/
theorem mem_res_block (t : Fin cfg0.N) (i : S20000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v4_1).slice (win0_6.rect t)).set ↔ _
  rw [View.set_slice_whole, Rect.mem_set_unit]
  exact Iff.rfl

/-- The point whose block holds row `r` is `r / 2000`. -/
def pointOf (i : S20000x128.Idx) : Fin cfg0.N :=
  ⟨(i 0).val / 2000, by have h : (i 0).val < 20000 := (i 0).isLt; show (i 0).val / 2000 < 10; omega⟩

theorem pointOf_val (i : S20000x128.Idx) : (pointOf i).val = (i 0).val / 2000 := rfl

/-- Every index of the first output array is in the block of the point its row belongs to. -/
theorem h_cover (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  obtain ⟨-, -, -, -, -, ⟨e0, e1⟩, -⟩ := block_indices (pointOf i)
  rw [pointOf_val] at e0
  refine ⟨pointOf i, flush0_5 _, ?_⟩
  rw [mem_h_block]
  intro a
  match a with
  | ⟨0, _⟩ =>
    show win0_5.index (pointOf i) (0 : Fin 2) * 2000 ≤ (i 0).val ∧ (i 0).val < win0_5.index (pointOf i) (0 : Fin 2) * 2000 + 2000
    rw [e0]; omega
  | ⟨1, _⟩ =>
    show win0_5.index (pointOf i) (1 : Fin 2) * 128 ≤ (i 1).val ∧ (i 1).val < win0_5.index (pointOf i) (1 : Fin 2) * 128 + 128
    rw [e1]; omega

/-- Every index of the second output array is in the block of the point its row belongs to. -/
theorem res_cover (i : S20000x128.Idx) :
    ∃ t : Fin cfg0.N, (cfg0.win 6).flush t = true ∧ i ∈ ((cfg0.win 6).blk t).view.set := by
  have hi0 : (i 0).val < 20000 := (i 0).isLt
  have hi1 : (i 1).val < 128 := (i 1).isLt
  obtain ⟨-, -, -, -, -, -, ⟨e0, e1⟩⟩ := block_indices (pointOf i)
  rw [pointOf_val] at e0
  refine ⟨pointOf i, flush0_6 _, ?_⟩
  rw [mem_res_block]
  intro a
  match a with
  | ⟨0, _⟩ =>
    show win0_6.index (pointOf i) (0 : Fin 2) * 2000 ≤ (i 0).val ∧ (i 0).val < win0_6.index (pointOf i) (0 : Fin 2) * 2000 + 2000
    rw [e0]; omega
  | ⟨1, _⟩ =>
    show win0_6.index (pointOf i) (1 : Fin 2) * 128 ≤ (i 1).val ∧ (i 1).val < win0_6.index (pointOf i) (1 : Fin 2) * 128 + 128
    rw [e1]; omega

/-! ## The two output arrays -/

/-- The region's first output array ends as the linear layer of the arrays it read, given the bias row's entries. -/
theorem h_arr (c : Dev nD) (b : (⟨1, ![128]⟩ : Shape).Idx → EReal)
    (hb : ∀ q : Fin 128, (V c main_v2 : S1x128.Idx → EReal) (ix2 0 q) = b (ix1 q)) :
    (dat0 (F := Ideal) V c).arrAt 5 cfg0.N
      = Spec.lin (V c main_arg0 : S20000x128.Idx → EReal) (V c main_v0 : S128x128.Idx → EReal) b :=
  (dat0 (F := Ideal) V c).arrAt_eq_of_cover 5 _ (fun t _ => h_flushed V c b hb t) h_cover

/-- The region's second output array ends as the residual of that layer. -/
theorem res_arr (c : Dev nD) (b : (⟨1, ![128]⟩ : Shape).Idx → EReal)
    (hb : ∀ q : Fin 128, (V c main_v2 : S1x128.Idx → EReal) (ix2 0 q) = b (ix1 q)) :
    (dat0 (F := Ideal) V c).arrAt 6 cfg0.N
      = Spec.res (Spec.lin (V c main_arg0 : S20000x128.Idx → EReal) (V c main_v0 : S128x128.Idx → EReal) b)
          (V c main_arg10 : S1x128.Idx → EReal) (V c main_arg2 : S20000x1.Idx → EReal) :=
  (dat0 (F := Ideal) V c).arrAt_eq_of_cover 6 _ (fun t _ => res_flushed V c b hb t) res_cover

end Cert.KernelIdeal.Region0

end
-- ==== Proof.Region1Value.lean ====
/-
  Region 1 (the edge messages), read as values at the extended reals: whatever the region finds in its arrays, it
  leaves `norm · max(g + (ef · WT + b), 0)` in its output array, entry by entry (`Spec.msg` of `Spec.lin`), `g` being
  the array of gathered rows it was handed. Block `t` holds rows `5000 t … 5000 t + 4999`; the 128 blocks tile the
  640000 rows.
-/
import proofs.«426488_j79276506349851_1_alg».proof.Proof.Gen.KernelIdeal.Frame
import proofs.«426488_j79276506349851_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The matrix product's operand indices

The product contracts the left operand's axis 1 against the right operand's axis 0 and has no batch axes: at the
result's entry `i` and contraction index `q`, the left operand is read at `(i 0, q)` and the right at `(q, i 1)`. -/

/-- The left operand's row is the result's row. -/
theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at entry `(p, q)`: row `p` of the left operand against column `q` of the right. -/
theorem mm_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact mm_lhs_0 _ _
    | ⟨1, _⟩ => exact (mm_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (mm_rhs_0 _ _).trans hk
    | ⟨1, _⟩ => exact mm_rhs_1 _ _)
  rw [el, er]

/-! ## The body's arithmetic at an entry -/

/-- A column `[5000, 1]` broadcast along the rows' 128 entries reads, at `(p, q)`, the column's entry `p`. -/
theorem bcast_col_apply (v : S5000x1.Idx → EReal) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- What the body stores at entry `(p, q)` of its block, from the blocks it loaded: the norm column's entry `p` times
    the positive part of the gathered entry plus the edge features' row `p` against the weight's column `q` plus the
    bias entry `q`. -/
theorem pay_apply (ef g : Vec Ideal S5000x128 .f32) (nrm : Vec Ideal S5000x1 .f32) (wt : Vec Ideal S128x128 .f32)
    (bias : Vec Ideal S1x128 .f32) (p : Fin 5000) (q : Fin 128) :
    k1_pay1 (F := Ideal) ef wt bias g nrm (ix2 p q)
      = nrm (ix2 p (0 : Fin 1)) * max (g (ix2 p q) + ((∑ k : Fin 128, ef (ix2 p k) * wt (ix2 k q)) + bias (ix2 (0 : Fin 1) q))) Spec.zeroW := by
  unfold k1_pay1
  simp only [shapeCast_self]
  rw [mulf_apply, maximumf_apply, addf_apply, addf_apply, bcast_col_apply, broadcastTo_1b_ab_apply, mm_apply]
  rfl

/-- The payload's entry as an entry of the edge messages, once each loaded block's entries are known as entries of whole
    arrays: `r` is the array's row that the block's row `p` is. -/
theorem pay_eq_msg (ef g : Vec Ideal S5000x128 .f32) (nrm : Vec Ideal S5000x1 .f32) (wt : Vec Ideal S128x128 .f32)
    (bias : Vec Ideal S1x128 .f32) (EF G : S640000x128.Idx → EReal) (NRM : S640000x1.Idx → EReal)
    (WT : S128x128.Idx → EReal) (b : (⟨1, ![128]⟩ : Shape).Idx → EReal) (p : Fin 5000) (q : Fin 128) (r : Fin 640000)
    (hef : ∀ k : Fin 128, ef (ix2 p k) = EF (ix2 r k)) (hg : g (ix2 p q) = G (ix2 r q))
    (hnrm : nrm (ix2 p (0 : Fin 1)) = NRM (ix2 r (0 : Fin 1))) (hwt : ∀ k : Fin 128, wt (ix2 k q) = WT (ix2 k q))
    (hbias : bias (ix2 (0 : Fin 1) q) = b (ix1 q)) :
    k1_pay1 (F := Ideal) ef wt bias g nrm (ix2 p q) = Spec.msg NRM G (Spec.lin EF WT b) (ix2 r q) := by
  rw [pay_apply, Spec.msg_apply, Spec.lin_apply, hg, hnrm, hbias]
  congr 4
  exact Finset.sum_congr rfl fun k _ => by rw [hef k, hwt k]

/-! ## The blocks the body is handed

Every window moves one block per grid point along the rows, or stays on its one block: the printed index maps, decided
over the 128 points. -/

theorem hz : (![0, 0] : Fin 2 → Nat) = fun _ => 0 := funext fun a => by fin_cases a <;> rfl

/-- At point `t` the three row-blocked inputs and the output are on block `t` of their rows, the weight and the bias row
    on their only block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The edge features' block at point `t` is rows `5000 t … 5000 t + 4999` of the array. -/
theorem ef_blk_apply (c : Dev nD) (t : Fin cfg1.N) (p : Fin 5000) (k : Fin 128) (r : Fin 640000)
    (hr : r.val = t.val * 5000 + p.val) :
    (iblk1 (F := Ideal) V c 0 t : Vec Ideal S5000x128 .f32) (ix2 p k) = (V c main_arg1 : S640000x128.Idx → EReal) (ix2 r k) := by
  obtain ⟨e0, e1, -⟩ := idx_facts t
  unfold iblk1
  rw [View.read_apply]
  show (V c main_arg1 : S640000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The gathered rows' block at point `t` is rows `5000 t … 5000 t + 4999` of the array. -/
theorem g_blk_apply (c : Dev nD) (t : Fin cfg1.N) (p : Fin 5000) (q : Fin 128) (r : Fin 640000)
    (hr : r.val = t.val * 5000 + p.val) :
    (iblk1 (F := Ideal) V c 1 t : Vec Ideal S5000x128 .f32) (ix2 p q) = (V c main_v5 : S640000x128.Idx → EReal) (ix2 r q) := by
  obtain ⟨-, -, e0, e1, -⟩ := idx_facts t
  unfold iblk1
  rw [View.read_apply]
  show (V c main_v5 : S640000x128.Idx → EReal) (((cfg1.win 1).blk t).view.emb (ix2 p q)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

/-- The norm column's block at point `t` is rows `5000 t … 5000 t + 4999` of the column. -/
theorem nrm_blk_apply (c : Dev nD) (t : Fin cfg1.N) (p : Fin 5000) (r : Fin 640000)
    (hr : r.val = t.val * 5000 + p.val) :
    (iblk1 (F := Ideal) V c 2 t : Vec Ideal S5000x1 .f32) (ix2 p (0 : Fin 1)) = (V c main_arg3 : S640000x1.Idx → EReal) (ix2 r (0 : Fin 1)) := by
  obtain ⟨-, -, -, -, e0, e1, -⟩ := idx_facts t
  unfold iblk1
  rw [View.read_apply]
  show (V c main_arg3 : S640000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

/-- The weight's block is the whole weight at every point. -/
theorem wt_blk_apply (c : Dev nD) (t : Fin cfg1.N) (k q : Fin 128) :
    (iblk1 (F := Ideal) V c 3 t : Vec Ideal S128x128 .f32) (ix2 k q) = (V c main_v1 : S128x128.Idx → EReal) (ix2 k q) := by
  obtain ⟨-, -, -, -, -, -, e0, e1, -⟩ := idx_facts t
  unfold iblk1
  rw [View.read_apply]
  show (V c main_v1 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block is the whole row at every point. -/
theorem bias_blk_apply (c : Dev nD) (t : Fin cfg1.N) (q : Fin 128) :
    (iblk1 (F := Ideal) V c 4 t : Vec Ideal S1x128 .f32) (ix2 (0 : Fin 1) q) = (V c main_v3 : S1x128.Idx → EReal) (ix2 (0 : Fin 1) q) := by
  obtain ⟨-, -, -, -, -, -, -, -, e0, e1, -⟩ := idx_facts t
  unfold iblk1
  rw [View.read_apply]
  show (V c main_v3 : S1x128.Idx → EReal) (((cfg1.win 4).blk t).view.emb (ix2 (0 : Fin 1) q)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-! ## From the blocks to the array -/

/-- What point `t` writes back is block `t` of the edge messages of the arrays the region reads. -/
theorem flushed_eq (c : Dev nD) (b : (⟨1, ![128]⟩ : Shape).Idx → EReal)
    (hb : ∀ q : Fin 128, (V c main_v3 : S1x128.Idx → EReal) (ix2 0 q) = b (ix1 q)) (t : Fin cfg1.N) :
    (dat1 (F := Ideal) V c).flushed 5 t
      = ((cfg1.win 5).blk t).view.read (Elt Ideal)
          (Spec.msg (V c main_arg3 : S640000x1.Idx → EReal) (V c main_v5 : S640000x128.Idx → EReal)
            (Spec.lin (V c main_arg1 : S640000x128.Idx → EReal) (V c main_v1 : S128x128.Idx → EReal) b)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz,
    View.ld_unit_zero (S := S1x128) hz, View.ld_unit_zero (S := S5000x1) hz]
  refine funext fun (j : S5000x128.Idx) => ?_
  obtain ⟨p, q, rfl⟩ : ∃ (p : Fin 5000) (q : Fin 128), j = ix2 p q := ⟨j 0, j 1, eq_ix2 j⟩
  have ht : t.val < 128 := lt_of_lt_of_eq t.isLt N_1
  obtain ⟨r, hr⟩ : ∃ r : Fin 640000, r.val = t.val * 5000 + p.val := ⟨⟨t.val * 5000 + p.val, by have := p.isLt; omega⟩, rfl⟩
  obtain ⟨-, -, -, -, -, -, -, -, -, -, e0, e1⟩ := idx_facts t
  have hemb : ((cfg1.win 5).blk t).view.emb (ix2 p q) = (ix2 r q : S640000x128.Idx) := funext fun a => Fin.ext (by
    match a with
    | ⟨0, _⟩ => show win1_5.index t (0 : Fin 2) * 5000 + 1 * p.val = r.val; omega
    | ⟨1, _⟩ => show win1_5.index t (1 : Fin 2) * 128 + 1 * q.val = q.val; omega)
  rw [View.read_apply, hemb]
  exact pay_eq_msg (iblk1 (F := Ideal) V c 0 t) (iblk1 (F := Ideal) V c 1 t) (iblk1 (F := Ideal) V c 2 t)
    (iblk1 (F := Ideal) V c 3 t) (iblk1 (F := Ideal) V c 4 t)
    (V c main_arg1) (V c main_v5) (V c main_arg3) (V c main_v1) b p q r
    (fun k => ef_blk_apply V c t p k r hr) (g_blk_apply V c t p q r hr) (nrm_blk_apply V c t p r hr)
    (fun k => wt_blk_apply V c t k q) ((bias_blk_apply V c t q).trans (hb q))

/-- An index of the output array is in point `t`'s block iff each coordinate is in the block's range on its axis. -/
theorem mem_blk (t : Fin cfg1.N) (i : S640000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v6).slice (win1_5.rect t)).set ↔ _
  rw [View.set_slice_whole, Rect.mem_set_unit]
  exact Iff.rfl

/-- Every row of the output array is in some point's block: row `r` in the block of point `r / 5000`. -/
theorem covered (i : S640000x128.Idx) :
    ∃ t : Fin cfg1.N, (cfg1.win 5).flush t = true ∧ i ∈ ((cfg1.win 5).blk t).view.set := by
  have hi0 : (i 0).val < 640000 := (i 0).isLt
  have hi1 : (i 1).val < 128 := (i 1).isLt
  have hN : cfg1.N = 128 := N_1
  let t : Fin cfg1.N := ⟨(i 0).val / 5000, by rw [hN]; omega⟩
  have htv : t.val = (i 0).val / 5000 := rfl
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array ends as the edge messages of the arrays it read, given the bias row's entries. -/
theorem msg_arr (c : Dev nD) (b : (⟨1, ![128]⟩ : Shape).Idx → EReal)
    (hb : ∀ q : Fin 128, (V c main_v3 : S1x128.Idx → EReal) (ix2 0 q) = b (ix1 q)) :
    (dat1 (F := Ideal) V c).arrAt 5 cfg1.N
      = Spec.msg (V c main_arg3 : S640000x1.Idx → EReal) (V c main_v5 : S640000x128.Idx → EReal)
          (Spec.lin (V c main_arg1 : S640000x128.Idx → EReal) (V c main_v1 : S128x128.Idx → EReal) b) :=
  (dat1 (F := Ideal) V c).arrAt_eq_of_cover 5 _ (fun t _ => flushed_eq V c b hb t) covered

end Cert.KernelIdeal.Region1

end
-- ==== Proof.KernelValue.lean ====
/-
  The kernel program's result as ONE term of the launch arrays, at the extended reals.

  Region 0 finds `x`, the transposed node weight and the node bias row, so its first output is the node layer
  `h = x · Wnᵀ + bn` and its second the residual `max(h + r, 0) / deg`. The host then takes rows of `h` at the source
  indices; region 1 finds those rows, the edge features, `norm`, the transposed edge weight and the edge bias row, so
  its output is the messages `norm · max(take(h, src) + (ef · Weᵀ + be), 0)`. The result is their scatter-add at the
  destination indices plus the residual. Where every source index lies in `-20000 … 19999`, `take` is the gather at
  the wrapped indices.
-/
import proofs.«426488_j79276506349851_1_alg».proof.Proof.HostReads
import proofs.«426488_j79276506349851_1_alg».proof.Proof.Region0Value
import proofs.«426488_j79276506349851_1_alg».proof.Proof.Region1Value
import proofs.«426488_j79276506349851_1_alg».proof.Proof.KernelRun

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The node layer `h = x · Wnᵀ + bn` of the launch arrays. -/
def nodeLayer (c : Dev nD) : S20000x128.Idx → EReal :=
  Spec.lin (m ((c : Thread nD τ).loc main_arg0) : S20000x128.Idx → EReal)
    (transpose S128x128 [1, 0] (m ((c : Thread nD τ).loc main_arg6)) transposes_S128x128_S128x128_1_0)
    (m ((c : Thread nD τ).loc main_arg7) : S128.Idx → EReal)

/-- The edge layer `e = ef · Weᵀ + be` of the launch arrays. -/
def edgeLayer (c : Dev nD) : S640000x128.Idx → EReal :=
  Spec.lin (m ((c : Thread nD τ).loc main_arg1) : S640000x128.Idx → EReal)
    (transpose S128x128 [1, 0] (m ((c : Thread nD τ).loc main_arg8)) transposes_S128x128_S128x128_1_0)
    (m ((c : Thread nD τ).loc main_arg9) : S128.Idx → EReal)

/-- The layer's result: messages over the gathered rows, scatter-added at the destinations, plus the residual. -/
def out (c : Dev nD) : S20000x128.Idx → EReal :=
  addf (F := Ideal) (Host.scatterAdd (F := Ideal) scatter_S20000x128_S640000x1_S640000x128_1_0_0_1
      (broadcastInDim S20000x128 ![] bcast_S_S20000x128 (constant (F := Ideal) S_ .f32 0x00000000#32))
      (broadcastInDim S640000x1 ![0] bcast_S640000_S640000x1_0 (m ((c : Thread nD τ).loc main_arg5)))
      (Spec.msg (m ((c : Thread nD τ).loc main_arg3) : S640000x1.Idx → EReal)
        (Host.gather gather_S20000x128_S640000x1_S640000x128_1_0_n_n_0_1_1128 (nodeLayer m c)
          (Take.wrapIdx (m ((c : Thread nD τ).loc main_arg4))))
        (edgeLayer m c)))
    (Spec.res (nodeLayer m c) (m ((c : Thread nD τ).loc main_arg10) : S1x128.Idx → EReal)
      (m ((c : Thread nD τ).loc main_arg2) : S20000x1.Idx → EReal))

/-- Region 0's first output is the node layer. -/
theorem h_final (c : Dev nD) : (dat0 (V1 m ρ) c).arrAt 5 cfg0.N = nodeLayer m c := by
  rw [Region0.h_arr (V1 m ρ) c (m ((c : Thread nD τ).loc main_arg7)) (fun q => HostReads.W1_v2_apply m ρ c q)]
  show Spec.lin (W1 m ρ c (Proc.devRef .tc main_arg0)) (W1 m ρ c (Proc.devRef .tc main_v0)) _ = _
  rw [HostReads.W1_arg0, HostReads.W1_v0]
  rfl

/-- Region 0's second output is the residual of the node layer. -/
theorem res_final (c : Dev nD) : (dat0 (V1 m ρ) c).arrAt 6 cfg0.N
    = Spec.res (nodeLayer m c) (m ((c : Thread nD τ).loc main_arg10) : S1x128.Idx → EReal)
        (m ((c : Thread nD τ).loc main_arg2) : S20000x1.Idx → EReal) := by
  rw [Region0.res_arr (V1 m ρ) c (m ((c : Thread nD τ).loc main_arg7)) (fun q => HostReads.W1_v2_apply m ρ c q)]
  show Spec.res (Spec.lin (W1 m ρ c (Proc.devRef .tc main_arg0)) (W1 m ρ c (Proc.devRef .tc main_v0)) _)
    (W1 m ρ c (Proc.devRef .tc main_arg10)) (W1 m ρ c (Proc.devRef .tc main_arg2)) = _
  rw [HostReads.W1_arg0, HostReads.W1_v0, HostReads.W1_arg10, HostReads.W1_arg2]
  rfl

/-- Region 1's output is the messages over `take` of the node layer. -/
theorem msg_final (c : Dev nD) : (dat1 (V3 m ρ) c).arrAt 5 cfg1.N
    = Spec.msg (m ((c : Thread nD τ).loc main_arg3) : S640000x1.Idx → EReal)
        (Take.takeFill (nodeLayer m c) (m ((c : Thread nD τ).loc main_arg4))) (edgeLayer m c) := by
  rw [Region1.msg_arr (V3 m ρ) c (m ((c : Thread nD τ).loc main_arg9)) (fun q => HostReads.W3_v3_apply m ρ c q)]
  show Spec.msg (W3 m ρ c (Proc.devRef .tc main_arg3)) (W3 m ρ c (Proc.devRef .tc main_v5))
    (Spec.lin (W3 m ρ c (Proc.devRef .tc main_arg1)) (W3 m ρ c (Proc.devRef .tc main_v1)) _) = _
  rw [HostReads.W3_arg3, HostReads.W3_v5, HostReads.W3_arg1, HostReads.W3_v1, h_final]
  rfl

/-- The result buffer after the run, for source indices in `-20000 … 19999`. -/
theorem result (c : Dev nD)
    (hsrc : ∀ e : S640000.Idx, IntOp.cmpi .sge ((m ((c : Thread nD τ).loc main_arg4) : IVec S640000 32) e) 4294947296#32 = 1#1
      ∧ IntOp.cmpi .slt ((m ((c : Thread nD τ).loc main_arg4) : IVec S640000 32) e) 20000#32 = 1#1) :
    W5 m ρ c (Proc.devRef .tc main_v10) = out m c := by
  rw [HostReads.W5_v10, msg_final, res_final, Take.takeFill_eq_gather _ _ hsrc]
  rfl

/-- The run of the kernel program with its result named: every weakly fair execution terminates, nothing faulting,
    the result buffer at `out` of the launch arrays and the arguments unchanged. -/
theorem run
    (hsrc : ∀ (c : Dev nD) (e : S640000.Idx), IntOp.cmpi .sge ((m ((c : Thread nD τ).loc main_arg4) : IVec S640000 32) e) 4294947296#32 = 1#1
      ∧ IntOp.cmpi .slt ((m ((c : Thread nD τ).loc main_arg4) : IVec S640000 32) e) 20000#32 = 1#1) :
    θ_run defs (onTc (τ := τ) (main (F := Ideal))) ⟨m, fun _ => 0, ρ⟩ (fun r => ∀ c : Dev nD,
      r.2.mem ((c.tc : Thread nD τ).loc main_v10) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c (hsrc c)), (h c).2⟩)
    (RunValue.run_named (F := Ideal) m ρ)

end Cert.KernelIdeal.KValue

end
-- ==== Proof.RefValue.lean ====
/-
  The reference's host operations, read entry by entry at the extended reals: a `dot_general` against an already
  transposed weight plus a twice-broadcast bias is the linear layer `Spec.lin`; `relu` (a maximum with the broadcast
  zero word) of a sum, divided by a broadcast column, is `Spec.res`; a broadcast column times that `relu` is `Spec.msg`.
-/
import proofs.«426488_j79276506349851_1_alg».proof.Proof.Gen.ReferenceIdeal.Read
import proofs.«426488_j79276506349851_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx

/-! ## Broadcasts at an index

A `broadcast_in_dim` reads its operand at the output's coordinates on the axes it keeps and at `0` on the operand's axes of
extent one. The four shapes the reference uses, for any number of rows `n`. -/

/-- A vector of 128 entries as a [1 × 128] row: entry `(0, q)` is entry `q` of the vector. -/
theorem bcast_vec_row {α : Type} (hb : S128.BroadcastsInDim S1x128 ![1]) (b : S128.Idx → α) (z : Fin 1) (q : Fin 128) :
    broadcastInDim S1x128 ![1] hb b (ix2 z q) = b (ix1 q) :=
  broadcastInDim_apply _ hb b (ix2 z q) (ix1 q) (fun a => match a with
    | ⟨0, _⟩ => by show q.val = if (128 : Nat) = 1 then 0 else q.val; rw [if_neg (by decide)])

/-- A [1 × 128] row repeated down `n` rows: entry `(p, q)` is the row's entry `(0, q)`. -/
theorem bcast_row {α : Type} {n : Nat} (hb : S1x128.BroadcastsInDim ⟨2, ![n, 128]⟩ ![0, 1]) (r : S1x128.Idx → α)
    (p : Fin n) (q : Fin 128) :
    broadcastInDim ⟨2, ![n, 128]⟩ ![0, 1] hb r (ix2 p q) = r (ix2 0 q) :=
  broadcastInDim_apply _ hb r (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- An [n × 1] column repeated across 128 columns: entry `(p, q)` is the column's entry `(p, 0)`. (If `n = 1` the row
    coordinate is read as `0`, which is then `p` itself.) -/
theorem bcast_col {α : Type} {n : Nat} (hb : (⟨2, ![n, 1]⟩ : Shape).BroadcastsInDim ⟨2, ![n, 128]⟩ ![0, 1])
    (c : (⟨2, ![n, 1]⟩ : Shape).Idx → α) (p : Fin n) (q : Fin 128) :
    broadcastInDim ⟨2, ![n, 128]⟩ ![0, 1] hb c (ix2 p q) = c (ix2 p 0) :=
  broadcastInDim_apply _ hb c (ix2 p q) (ix2 p 0) (fun a => match a with
    | ⟨0, _⟩ => by
        show p.val = if n = 1 then 0 else p.val
        have hp := p.isLt
        split
        · omega
        · rfl
    | ⟨1, _⟩ => by show 0 = if (1 : Nat) = 1 then 0 else q.val; rw [if_pos rfl])

/-- The zero word as a scalar, spread over a whole array: every entry is the extended real the word encodes. -/
theorem bcast_zero {t : Shape} (hb : S_.BroadcastsInDim t ![]) (j : t.Idx) :
    broadcastInDim t ![] hb (constant (F := Ideal) S_ .f32 0x00000000#32) j = Spec.zeroW :=
  (broadcastInDim_apply _ hb _ j (fun a => a.elim0) (fun a => a.elim0)).trans (constant_apply _ _)

/-! ## The matrix products at an index -/

/-- The product of an [20000 × 128] array with a [128 × 128] array, contracting the left's columns against the right's rows:
    entry `(p, q)` is the sum over `k` of `x (p, k) * y (k, q)`. The contraction index set has one axis of extent 128, so the sum
    over it is a sum over `Fin 128`; the left index keeps its row and takes the contraction coordinate as its column, the right
    index takes the contraction coordinate as its row and keeps the output's column. -/
theorem dot20000_apply (x : FVec Ideal S20000x128 .f32) (y : FVec Ideal S128x128 .f32) (p : Fin 20000) (q : Fin 128) :
    Host.dotGeneral dot_S20000x128_S128x128_S20000x128_1_0_0_1_n_n none x y (ix2 p q) = ∑ k : Fin 128, x (ix2 p k) * y (ix2 k q) := by
  simp only [Host.dotGeneral]
  rw [Ideal.dotGeneral_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 p q)
      ((contrEquiv1 dot_S20000x128_S128x128_S20000x128_1_0_0_1_n_n 128 rfl rfl).symm k) = ix2 p k := funext fun a => Fin.ext (by
    match a with
    | ⟨0, _⟩ => exact Read.lhs_main_v1_0 _ _
    | ⟨1, _⟩ => exact (Read.lhs_main_v1_1 _ _).trans hk)
  have er : dot_S20000x128_S128x128_S20000x128_1_0_0_1_n_n.rhsIdx (ix2 p q)
      ((contrEquiv1 dot_S20000x128_S128x128_S20000x128_1_0_0_1_n_n 128 rfl rfl).symm k) = ix2 k q := funext fun a => Fin.ext (by
    match a with
    | ⟨0, _⟩ => exact (Read.rhs_main_v1_0 _ _).trans hk
    | ⟨1, _⟩ => exact Read.rhs_main_v1_1 _ _)
  rw [el, er]

/-- The product of an [640000 × 128] array with a [128 × 128] array, contracting the left's columns against the right's rows:
    entry `(p, q)` is the sum over `k` of `x (p, k) * y (k, q)`. The contraction index set has one axis of extent 128, so the sum
    over it is a sum over `Fin 128`; the left index keeps its row and takes the contraction coordinate as its column, the right
    index takes the contraction coordinate as its row and keeps the output's column. -/
theorem dot640000_apply (x : FVec Ideal S640000x128 .f32) (y : FVec Ideal S128x128 .f32) (p : Fin 640000) (q : Fin 128) :
    Host.dotGeneral dot_S640000x128_S128x128_S640000x128_1_0_0_1_n_n none x y (ix2 p q) = ∑ k : Fin 128, x (ix2 p k) * y (ix2 k q) := by
  simp only [Host.dotGeneral]
  rw [Ideal.dotGeneral_apply, ← Equiv.sum_comp (contrEquiv1 dot_S640000x128_S128x128_S640000x128_1_0_0_1_n_n 128 rfl rfl).symm]
  refine Finset.sum_congr rfl fun k _ => ?_
  have hk := contrEquiv1_symm_val dot_S640000x128_S128x128_S640000x128_1_0_0_1_n_n 128 rfl rfl k
  have el : dot_S640000x128_S128x128_S640000x128_1_0_0_1_n_n.lhsIdx (ix2 p q)
      ((contrEquiv1 dot_S640000x128_S128x128_S640000x128_1_0_0_1_n_n 128 rfl rfl).symm k) = ix2 p k := funext fun a => Fin.ext (by
    match a with
    | ⟨0, _⟩ => exact Read.lhs_main_v6_0 _ _
    | ⟨1, _⟩ => exact (Read.lhs_main_v6_1 _ _).trans hk)
  have er : dot_S640000x128_S128x128_S640000x128_1_0_0_1_n_n.rhsIdx (ix2 p q)
      ((contrEquiv1 dot_S640000x128_S128x128_S640000x128_1_0_0_1_n_n 128 rfl rfl).symm k) = ix2 k q := funext fun a => Fin.ext (by
    match a with
    | ⟨0, _⟩ => exact (Read.rhs_main_v6_0 _ _).trans hk
    | ⟨1, _⟩ => exact Read.rhs_main_v6_1 _ _)
  rw [el, er]

/-! ## The four compositions -/

/-- The node projection as the host spells it. -/
theorem lin_nodes (x : FVec Ideal S20000x128 .f32) (WT : FVec Ideal S128x128 .f32) (b : FVec Ideal S128 .f32) :
    addf (Host.dotGeneral dot_S20000x128_S128x128_S20000x128_1_0_0_1_n_n none x WT)
        (broadcastInDim S20000x128 ![0, 1] bcast_S1x128_S20000x128_0_1 (broadcastInDim S1x128 ![1] bcast_S128_S1x128_1 b))
      = Spec.lin x WT b := by
  funext i
  obtain ⟨p, q, rfl⟩ : ∃ p q, i = ix2 p q := ⟨i 0, i 1, eq_ix2 i⟩
  rw [addf_apply, dot20000_apply, bcast_row, bcast_vec_row, Spec.lin_apply]

/-- The edge projection as the host spells it. -/
theorem lin_edges (x : FVec Ideal S640000x128 .f32) (WT : FVec Ideal S128x128 .f32) (b : FVec Ideal S128 .f32) :
    addf (Host.dotGeneral dot_S640000x128_S128x128_S640000x128_1_0_0_1_n_n none x WT)
        (broadcastInDim S640000x128 ![0, 1] bcast_S1x128_S640000x128_0_1 (broadcastInDim S1x128 ![1] bcast_S128_S1x128_1 b))
      = Spec.lin x WT b := by
  funext i
  obtain ⟨p, q, rfl⟩ : ∃ p q, i = ix2 p q := ⟨i 0, i 1, eq_ix2 i⟩
  rw [addf_apply, dot640000_apply, bcast_row, bcast_vec_row, Spec.lin_apply]

/-- The residual path as the host spells it. -/
theorem res_eq (h : FVec Ideal S20000x128 .f32) (r : FVec Ideal S1x128 .f32) (deg : FVec Ideal S20000x1 .f32) :
    Host.divf (maximumf (addf h (broadcastInDim S20000x128 ![0, 1] bcast_S1x128_S20000x128_0_1 r))
          (broadcastInDim S20000x128 ![] bcast_S_S20000x128 (constant S_ .f32 0x00000000#32)))
        (broadcastInDim S20000x128 ![0, 1] bcast_S20000x1_S20000x128_0_1 deg)
      = Spec.res h r deg := by
  funext i
  obtain ⟨p, q, rfl⟩ : ∃ p q, i = ix2 p q := ⟨i 0, i 1, eq_ix2 i⟩
  rw [Spec.res_apply]
  show Ideal.div (max (h (ix2 p q) + broadcastInDim S20000x128 ![0, 1] bcast_S1x128_S20000x128_0_1 r (ix2 p q))
        (broadcastInDim S20000x128 ![] bcast_S_S20000x128 (constant (F := Ideal) S_ .f32 0x00000000#32) (ix2 p q)))
      (broadcastInDim S20000x128 ![0, 1] bcast_S20000x1_S20000x128_0_1 deg (ix2 p q)) = _
  rw [bcast_row, bcast_zero, bcast_col]

/-- The edge messages as the host spells them. -/
theorem msg_eq (nrm : FVec Ideal S640000x1 .f32) (g e : FVec Ideal S640000x128 .f32) :
    mulf (broadcastInDim S640000x128 ![0, 1] bcast_S640000x1_S640000x128_0_1 nrm)
        (maximumf (addf g e) (broadcastInDim S640000x128 ![] bcast_S_S640000x128 (constant S_ .f32 0x00000000#32)))
      = Spec.msg nrm g e := by
  funext i
  obtain ⟨p, q, rfl⟩ : ∃ p q, i = ix2 p q := ⟨i 0, i 1, eq_ix2 i⟩
  rw [Spec.msg_apply, mulf_apply, maximumf_apply, addf_apply, bcast_col, bcast_zero]

end Cert.ReferenceIdeal.RefValue

end
-- ==== Proof.lean ====
/-
  One message-passing layer of a graph network, over the extended reals: the kernel program against its reference.

  Both compute, for node features `x`, edge features `ef`, weights `Wn`, `We`, biases `bn`, `be`, a residual row `r`,
  degrees `deg`, edge norms `norm` and edge endpoints `src`, `dst`:
    `h = x · Wnᵀ + bn`,  `e = ef · Weᵀ + be`,  `msg = norm · max(h[src] + e, 0)`,
    `out = scatter-add of msg at dst  +  max(h + r, 0) / deg`.
  The kernel program computes `h` and the residual in one tiled region, `msg` in a second one, and leaves the row
  gather and the scatter-add to the host, as the reference does. At the extended reals a tile's matrix product is the
  rows' plain sums, a change of float format is the identity, and tiling changes nothing, so region by region the
  kernel's arrays are the reference's (`Spec.lin`, `Spec.res`, `Spec.msg`); the scatter-add and the gather are the
  same host operations applied to equal arrays. The one place the two programs differ is an out-of-range source
  index: the kernel's `take` fills such a row, the reference's indexing clamps. The precondition keeps every source
  index in `-20000 … 19999` (negative indices wrap identically on both sides), and there the two gathers are one
  (`Take.takeFill_eq_gather`). No law of the extended reals beyond `0 + s = s` for the products' zero accumulators is
  used, so the finiteness of the float inputs is never opened.

  The three frames: the two kernel programs' are the generated ones; the reference's is its generated run with the
  result dropped. The idealization rewrote no operation, so `preserves` is `True`.
-/
import proofs.«426488_j79276506349851_1_alg».proof.Defs
import proofs.«426488_j79276506349851_1_alg».proof.Proof.Gen.Kernel
import proofs.«426488_j79276506349851_1_alg».proof.Proof.Gen.Kernel.Skeleton
import proofs.«426488_j79276506349851_1_alg».proof.Proof.Gen.Kernel.Launch
import proofs.«426488_j79276506349851_1_alg».proof.Proof.Gen.Kernel.Points
import proofs.«426488_j79276506349851_1_alg».proof.Proof.Gen.Kernel.Frame
import proofs.«426488_j79276506349851_1_alg».proof.Proof.Gen.KernelIdeal
import proofs.«426488_j79276506349851_1_alg».proof.Proof.Gen.KernelIdeal.Skeleton
import proofs.«426488_j79276506349851_1_alg».proof.Proof.Gen.KernelIdeal.Launch
import proofs.«426488_j79276506349851_1_alg».proof.Proof.Gen.KernelIdeal.Points
import proofs.«426488_j79276506349851_1_alg».proof.Proof.Gen.KernelIdeal.Frame
import proofs.«426488_j79276506349851_1_alg».proof.Proof.Gen.ReferenceIdeal
import proofs.«426488_j79276506349851_1_alg».proof.Proof.Gen.ReferenceIdeal.Run
import proofs.«426488_j79276506349851_1_alg».proof.Proof.Gen.ReferenceIdeal.Read
import proofs.«426488_j79276506349851_1_alg».proof.Proof.Gen.Pre_finite_inputs
import proofs.«426488_j79276506349851_1_alg».proof.Proof.KernelValue
import proofs.«426488_j79276506349851_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer's result `KValue.out` of the kernel's
    launch arrays: the kernel by its run read region by region, the reference by its run's term read operation by
    operation, the two gathers identified on the precondition's index range. -/
theorem algebraic : Cert.algebraic_KernelIdeal_ReferenceIdeal := by
  intro m ρ m' ρ' hpre hagree
  refine ⟨fun c => Cert.KernelIdeal.KValue.out m c,
    Cert.KernelIdeal.KValue.run m ρ (fun c e => Cert.KernelIdeal.Take.src_range_of_pre _ _ _ _ _ _ _ _ _ _ _ (hpre c) e), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [h0, h1, h2, h3, h4, h5, h6, h7, h8, h9, h10]
  rw [Cert.ReferenceIdeal.RefValue.lin_nodes, Cert.ReferenceIdeal.RefValue.lin_edges,
    Cert.ReferenceIdeal.RefValue.res_eq, Cert.ReferenceIdeal.RefValue.msg_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
